-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3072 : Shape := ⟨3, ![4, 2048, 3072]⟩
abbrev S4x2048x128 : Shape := ⟨3, ![4, 2048, 128]⟩
abbrev S4 : Shape := ⟨1, ![4]⟩
abbrev S4x2x8x4096x128 : Shape := ⟨5, ![4, 2, 8, 4096, 128]⟩
abbrev S3072x3072 : Shape := ⟨2, ![3072, 3072]⟩
abbrev S1024x3072 : Shape := ⟨2, ![1024, 3072]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S4x2x8x4096x128 : S_.BroadcastsInDim S4x2x8x4096x128 (![] : Fin 0 → Fin S4x2x8x4096x128.rank)
  reducesTo_S4x2x8x4096x128_S_d0_1_2_3_4 : S4x2x8x4096x128.ReducesTo [0, 1, 2, 3, 4] S_
  bcast_S_S3072x3072 : S_.BroadcastsInDim S3072x3072 (![] : Fin 0 → Fin S3072x3072.rank)
  reducesTo_S3072x3072_S_d0_1 : S3072x3072.ReducesTo [0, 1] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_arg6 : FVec F S1024x3072 .f32) (main_arg7 : FVec F S1024x3072 .f32) (main_arg8 : FVec F S3072x3072 .f32) (main_v13 : IVec S_ 1) (main_v16 : IVec S3072x3072 1) : IVec S_ 1 :=
  let main_c_5 : IVec S_ 1 := constantI S_ 1 1#1
  let main_v17 : IVec S_ 1 := (fun x v => Host.reduce IntOp.andi x v reducesTo_S3072x3072_S_d0_1 h_S_) main_v16 main_c_5
  let main_v18 : IVec S_ 1 := andi main_v13 main_v17
  let main_v19 : FVec F S1024x3072 .f32 := Host.absf main_arg6
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S1024x3072 .f32 := Host.absf main_arg7
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S3072x3072 .f32 := Host.absf main_arg8
  let main_cst_10 : FVec F S_ .f32 := constant S_ .f32 0x7F800000#32
  let main_v30 : FVec F S3072x3072 .f32 := broadcastInDim S3072x3072 ![] bcast_S_S3072x3072 main_cst_10
  let main_v31 : IVec S3072x3072 1 := cmpf .olt main_v29 main_v30
  let main_c_11 : IVec S_ 1 := constantI S_ 1 1#1
  let main_v32 : IVec S_ 1 := (fun x v => Host.reduce IntOp.andi x v reducesTo_S3072x3072_S_d0_1 h_S_) main_v31 main_c_11
  let main_v33 : IVec S_ 1 := andi main_v28 main_v32
  main_v33

def fn {F : FTy → Type} [FloatOps F] (main_arg0 : FVec F S4x2048x3072 .f32) (main_arg1 : FVec F S4x2048x128 .f32) (main_arg2 : IVec S4 32) (main_arg3 : IVec S4 32) (main_arg4 : FVec F S4x2x8x4096x128 .f32) (main_arg5 : FVec F S3072x3072 .f32) (main_arg6 : FVec F S1024x3072 .f32) (main_arg7 : FVec F S1024x3072 .f32) (main_arg8 : FVec F S3072x3072 .f32) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x2x8x4096x128 .f32 := Host.absf main_arg4
  let main_cst_2 : FVec F S_ .f32 := constant S_ .f32 0x7F800000#32
  let main_v10 : FVec F S4x2x8x4096x128 .f32 := broadcastInDim S4x2x8x4096x128 ![] bcast_S_S4x2x8x4096x128 main_cst_2
  let main_v11 : IVec S4x2x8x4096x128 1 := cmpf .olt main_v9 main_v10
  let main_c_3 : IVec S_ 1 := constantI S_ 1 1#1
  let main_v12 : IVec S_ 1 := (fun x v => Host.reduce IntOp.andi x v reducesTo_S4x2x8x4096x128_S_d0_1_2_3_4 h_S_) main_v11 main_c_3
  let main_v13 : IVec S_ 1 := andi main_v8 main_v12
  let main_v14 : FVec F S3072x3072 .f32 := Host.absf main_arg5
  let main_cst_4 : FVec F S_ .f32 := constant S_ .f32 0x7F800000#32
  let main_v15 : FVec F S3072x3072 .f32 := broadcastInDim S3072x3072 ![] bcast_S_S3072x3072 main_cst_4
  let main_v16 : IVec S3072x3072 1 := cmpf .olt main_v14 main_v15
  fn_part1 (F := F) main_arg6 main_arg7 main_arg8 main_v13 main_v16
-- ==== Kernel.lean ====
abbrev S4x2048x3072 : Shape := ⟨3, ![4, 2048, 3072]⟩
abbrev S4x2048x128 : Shape := ⟨3, ![4, 2048, 128]⟩
abbrev S4 : Shape := ⟨1, ![4]⟩
abbrev S4x2x8x4096x128 : Shape := ⟨5, ![4, 2, 8, 4096, 128]⟩
abbrev S3072x3072 : Shape := ⟨2, ![3072, 3072]⟩
abbrev S1024x3072 : Shape := ⟨2, ![1024, 3072]⟩
abbrev S8192x3072 : Shape := ⟨2, ![8192, 3072]⟩
abbrev S256x3072 : Shape := ⟨2, ![256, 3072]⟩

abbrev nBuf : Space → Nat
  | .hbm => 18
  | .vmem => 10
  | .smem => 0
  | _ => 0

abbrev bufTy : (tb : Table) → Fin (tcTables nBuf tb) → BufTy
  | .hbm, ⟨0, _⟩ => ⟨S4x2048x3072, .f32⟩
  | .hbm, ⟨1, _⟩ => ⟨S4x2048x128, .f32⟩
  | .hbm, ⟨2, _⟩ => ⟨S4, .i32⟩
  | .hbm, ⟨3, _⟩ => ⟨S4, .i32⟩
  | .hbm, ⟨4, _⟩ => ⟨S4x2x8x4096x128, .f32⟩
  | .hbm, ⟨5, _⟩ => ⟨S3072x3072, .f32⟩
  | .hbm, ⟨6, _⟩ => ⟨S1024x3072, .f32⟩
  | .hbm, ⟨7, _⟩ => ⟨S1024x3072, .f32⟩
  | .hbm, ⟨8, _⟩ => ⟨S3072x3072, .f32⟩
  | .hbm, ⟨9, _⟩ => ⟨S8192x3072, .f32⟩
  | .hbm, ⟨10, _⟩ => ⟨S8192x3072, .bf16⟩
  | .hbm, ⟨11, _⟩ => ⟨S3072x3072, .f32⟩
  | .hbm, ⟨12, _⟩ => ⟨S3072x3072, .bf16⟩
  | .hbm, ⟨13, _⟩ => ⟨S3072x3072, .f32⟩
  | .hbm, ⟨14, _⟩ => ⟨S3072x3072, .bf16⟩
  | .hbm, ⟨15, _⟩ => ⟨S8192x3072, .bf16⟩
  | .hbm, ⟨16, _⟩ => ⟨S8192x3072, .f32⟩
  | .hbm, ⟨17, _⟩ => ⟨S4x2048x3072, .f32⟩
  | .local _ .vmem, ⟨0, _⟩ => ⟨S256x3072, .bf16⟩
  | .local _ .vmem, ⟨1, _⟩ => ⟨S256x3072, .bf16⟩
  | .local _ .vmem, ⟨2, _⟩ => ⟨S3072x3072, .bf16⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S3072x3072, .bf16⟩
  | .local _ .vmem, ⟨8, _⟩ => ⟨S256x3072, .f32⟩
  | .local _ .vmem, ⟨9, _⟩ => ⟨S256x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x2048x3072_S8192x3072 : S4x2048x3072.ShapeCasts S8192x3072
  bitsLt_bf16_f32 : FTy.bits .bf16 < FTy.bits .f32
  transposes_S3072x3072_S3072x3072_1_0 : S3072x3072.Transposes [1, 0] S3072x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S3072x3072_S3072x3072_0_0 : ∀ a, (![0, 0] : Fin 2 → Nat) a + S3072x3072.size a ≤ S3072x3072.size a
  h_S3072x3072 : 0 < S3072x3072.numel
  shapeCasts_S3072x3072_S3072x3072 : S3072x3072.ShapeCasts S3072x3072
  packedbf16_S256x3072_S256x3072_0_0 : (Rect.unit (s := S256x3072) ![0, 0] S256x3072.size inb_S256x3072_S256x3072_0_0).PackedRows (EltTy.packing .bf16)
  shapeCasts_S8192x3072_S4x2048x3072 : S8192x3072.ShapeCasts S4x2048x3072
  dot_S256x3072_S3072x3072_S256x3072_1_0_0_1_n_n_wf : DotDims.WF S256x3072 S3072x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S8192x3072.size a
  hwx0_0 : ∀ i : grid0.Coords, EltTy.bits .bf16 = 32 ∨ (Rect.block (s := S8192x3072) S256x3072.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x3072.size a ≤ S3072x3072.size a
  hwx0_1 : ∀ i : grid0.Coords, EltTy.bits .bf16 = 32 ∨ (Rect.block (s := S3072x3072) S3072x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S8192x3072.size a
  hwx0_2 : ∀ i : grid0.Coords, EltTy.bits .bf16 = 32 ∨ (Rect.block (s := S8192x3072) S256x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3072.size a ≤ S8192x3072.size a
  hwx1_0 : ∀ i : grid1.Coords, EltTy.bits .bf16 = 32 ∨ (Rect.block (s := S8192x3072) S256x3072.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3072x3072.size a ≤ S3072x3072.size a
  hwx1_1 : ∀ i : grid1.Coords, EltTy.bits .bf16 = 32 ∨ (Rect.block (s := S3072x3072) S3072x3072.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x3072.size a ≤ S8192x3072.size a
  hwx1_2 : ∀ i : grid1.Coords, EltTy.bits .f32 = 32 ∨ (Rect.block (s := S8192x3072) S256x3072.size (cc1_transform_2 i) (hinb1_2 i)).WholeWords (EltTy.packing .f32)

variable [Facts₀]

def dot_S256x3072_S3072x3072_S256x3072_1_0_0_1_n_n : DotDims S256x3072 S3072x3072 S256x3072 where
  lhsContracting := [1]
  rhsContracting := [0]
  lhsNonContracting := [0]
  rhsNonContracting := [1]
  lhsBatch := []
  rhsBatch := []
  wf := dot_S256x3072_S3072x3072_S256x3072_1_0_0_1_n_n_wf

abbrev win0_0 : Pipeline.Window sig grid0 :=
  Pipeline.Window.ofSpec (Memref.whole main_v1) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3072x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3072x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x3072.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x3072 : Shape := ⟨3, ![4, 2048, 3072]⟩
abbrev S4x2048x128 : Shape := ⟨3, ![4, 2048, 128]⟩
abbrev S4 : Shape := ⟨1, ![4]⟩
abbrev S4x2x8x4096x128 : Shape := ⟨5, ![4, 2, 8, 4096, 128]⟩
abbrev S3072x3072 : Shape := ⟨2, ![3072, 3072]⟩
abbrev S1024x3072 : Shape := ⟨2, ![1024, 3072]⟩
abbrev S4x2048x1024 : Shape := ⟨3, ![4, 2048, 1024]⟩
abbrev S4x2048x24x128 : Shape := ⟨4, ![4, 2048, 24, 128]⟩
abbrev S4x24x2048x128 : Shape := ⟨4, ![4, 24, 2048, 128]⟩
abbrev S4x2048x8x128 : Shape := ⟨4, ![4, 2048, 8, 128]⟩
abbrev S4x8x2048x128 : Shape := ⟨4, ![4, 8, 2048, 128]⟩
abbrev S4x8x4x2048x128 : Shape := ⟨5, ![4, 8, 4, 2048, 128]⟩
abbrev S4x32x2048x128 : Shape := ⟨4, ![4, 32, 2048, 128]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x128, .f32⟩
  | .hbm, ⟨2, _⟩ => ⟨S4, .i32⟩
  | .hbm, ⟨3, _⟩ => ⟨S4, .i32⟩
  | .hbm, ⟨4, _⟩ => ⟨S4x2x8x4096x128, .f32⟩
  | .hbm, ⟨5, _⟩ => ⟨S3072x3072, .f32⟩
  | .hbm, ⟨6, _⟩ => ⟨S1024x3072, .f32⟩
  | .hbm, ⟨7, _⟩ => ⟨S1024x3072, .f32⟩
  | .hbm, ⟨8, _⟩ => ⟨S3072x3072, .f32⟩
  | .hbm, ⟨9, _⟩ => ⟨S4x2048x3072, .f32⟩
  | .hbm, ⟨10, _⟩ => ⟨S4x2048x1024, .f32⟩
  | .hbm, ⟨11, _⟩ => ⟨S4x2048x1024, .f32⟩
  | .hbm, ⟨12, _⟩ => ⟨S4x2048x24x128, .f32⟩
  | .hbm, ⟨13, _⟩ => ⟨S4x24x2048x128, .f32⟩
  | .hbm, ⟨14, _⟩ => ⟨S4x2048x8x128, .f32⟩
  | .hbm, ⟨15, _⟩ => ⟨S4x8x2048x128, .f32⟩
  | .hbm, ⟨16, _⟩ => ⟨S4x2048x8x128, .f32⟩
  | .hbm, ⟨17, _⟩ => ⟨S4x8x2048x128, .f32⟩
  | .hbm, ⟨18, _⟩ => ⟨S4x8x4x2048x128, .f32⟩
  | .hbm, ⟨19, _⟩ => ⟨S4x32x2048x128, .f32⟩
  | .hbm, ⟨20, _⟩ => ⟨S4x8x4x2048x128, .f32⟩
  | .hbm, ⟨21, _⟩ => ⟨S4x32x2048x128, .f32⟩
  | .hbm, ⟨22, _⟩ => ⟨S_, .f32⟩
  | .hbm, ⟨23, _⟩ => ⟨S4x24x2048x128, .f32⟩
  | .hbm, ⟨24, _⟩ => ⟨S4x24x2048x128, .f32⟩
  | .hbm, ⟨25, _⟩ => ⟨S4x2048x24x128, .f32⟩
  | .hbm, ⟨26, _⟩ => ⟨S4x2048x3072, .f32⟩
  | .hbm, ⟨27, _⟩ => ⟨S4x2048x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  shapeCasts_S4x2048x3072_S4x2048x24x128 : S4x2048x3072.ShapeCasts S4x2048x24x128
  transposes_S4x2048x24x128_S4x24x2048x128_0_2_1_3 : S4x2048x24x128.Transposes [0, 2, 1, 3] S4x24x2048x128
  shapeCasts_S4x2048x1024_S4x2048x8x128 : S4x2048x1024.ShapeCasts S4x2048x8x128
  transposes_S4x2048x8x128_S4x8x2048x128_0_2_1_3 : S4x2048x8x128.Transposes [0, 2, 1, 3] S4x8x2048x128
  bcast_S4x8x2048x128_S4x8x4x2048x128_0_1_3_4 : S4x8x2048x128.BroadcastsInDim S4x8x4x2048x128 (![0, 1, 3, 4] : Fin 4 → Fin S4x8x4x2048x128.rank)
  shapeCasts_S4x8x4x2048x128_S4x32x2048x128 : S4x8x4x2048x128.ShapeCasts S4x32x2048x128
  bcast_S_S4x24x2048x128 : S_.BroadcastsInDim S4x24x2048x128 (![] : Fin 0 → Fin S4x24x2048x128.rank)
  transposes_S4x24x2048x128_S4x2048x24x128_0_2_1_3 : S4x24x2048x128.Transposes [0, 2, 1, 3] S4x2048x24x128
  shapeCasts_S4x2048x24x128_S4x2048x3072 : S4x2048x24x128.ShapeCasts S4x2048x3072
  dot_S4x2048x3072_S3072x3072_S4x2048x3072_2_1_01_0_n_n_wf : DotDims.WF S4x2048x3072 S3072x3072 S4x2048x3072 [2] [1] [0, 1] [0] [] []
  dot_S4x2048x3072_S1024x3072_S4x2048x1024_2_1_01_0_n_n_wf : DotDims.WF S4x2048x3072 S1024x3072 S4x2048x1024 [2] [1] [0, 1] [0] [] []

variable [Facts₀]

def dot_S4x2048x3072_S3072x3072_S4x2048x3072_2_1_01_0_n_n : DotDims S4x2048x3072 S3072x3072 S4x2048x3072 where
  lhsContracting := [2]
  rhsContracting := [1]
  lhsNonContracting := [0, 1]
  rhsNonContracting := [0]
  lhsBatch := []
  rhsBatch := []
  wf := dot_S4x2048x3072_S3072x3072_S4x2048x3072_2_1_01_0_n_n_wf
def dot_S4x2048x3072_S1024x3072_S4x2048x1024_2_1_01_0_n_n : DotDims S4x2048x3072 S1024x3072 S4x2048x1024 where
  lhsContracting := [2]
  rhsContracting := [1]
  lhsNonContracting := [0, 1]
  rhsNonContracting := [0]
  lhsBatch := []
  rhsBatch := []
  wf := dot_S4x2048x3072_S1024x3072_S4x2048x1024_2_1_01_0_n_n_wf

class Facts : Prop extends Facts₀ where

variable [Facts]
-- ==== Proof.MatmulAt.lean ====
/-
  The matrix product of a [256, 3072] row block with a [3072, 3072] matrix, read at one entry of the result on the
  extended reals: entry (p, q) is the sum over the 3072 contraction positions h of a[p, h] · b[h, q]. Both kernel
  bodies of this program are this product (the first one scaled afterwards), so the reading is stated once, over the
  one dimension record the two bodies share.
-/
import proofs.«107704_j29360396436022_1_alg».proof.Proof.Gen.KernelIdeal
import Idealize.ShloMosaic.Lib.ValueIdx
import Idealize.ShloMosaic.PureOps.Ideal.Laws

noncomputable section

namespace Cert.KernelIdeal.MatmulAt

open Cert.KernelIdeal Idealize.ShloMosaic Idealize.ShloMosaic.ValueIdx

variable [Facts]

/-- The left operand's row coordinate is the result's row. -/
theorem lhs_row (i : S256x3072.Idx) (q : dot_S256x3072_S3072x3072_S256x3072_1_0_0_1_n_n.contr.Idx) :
    (dot_S256x3072_S3072x3072_S256x3072_1_0_0_1_n_n.lhsIdx i q 0).val = (i 0).val := by
  unfold DotDims.lhsIdx
  rw [dif_neg (show ¬(0 : Fin S256x3072.rank) ∈ dot_S256x3072_S3072x3072_S256x3072_1_0_0_1_n_n.lhsBatch by decide), dif_pos (show (0 : Fin S256x3072.rank) ∈ dot_S256x3072_S3072x3072_S256x3072_1_0_0_1_n_n.lhsNonContracting by decide)]
  rfl
/-- The left operand's column coordinate is the contraction position. -/
theorem lhs_col (i : S256x3072.Idx) (q : dot_S256x3072_S3072x3072_S256x3072_1_0_0_1_n_n.contr.Idx) :
    (dot_S256x3072_S3072x3072_S256x3072_1_0_0_1_n_n.lhsIdx i q 1).val = (q ⟨0, by decide⟩).val :=
  dot_S256x3072_S3072x3072_S256x3072_1_0_0_1_n_n.lhsIdx_val_of_single rfl i q
/-- The right operand's row coordinate is the contraction position. -/
theorem rhs_row (i : S256x3072.Idx) (q : dot_S256x3072_S3072x3072_S256x3072_1_0_0_1_n_n.contr.Idx) :
    (dot_S256x3072_S3072x3072_S256x3072_1_0_0_1_n_n.rhsIdx i q 0).val = (q ⟨0, by decide⟩).val :=
  dot_S256x3072_S3072x3072_S256x3072_1_0_0_1_n_n.rhsIdx_val_of_single rfl i q
/-- The right operand's column coordinate is the result's column. -/
theorem rhs_col (i : S256x3072.Idx) (q : dot_S256x3072_S3072x3072_S256x3072_1_0_0_1_n_n.contr.Idx) :
    (dot_S256x3072_S3072x3072_S256x3072_1_0_0_1_n_n.rhsIdx i q 1).val = (i 1).val := by
  unfold DotDims.rhsIdx
  rw [dif_neg (show ¬(1 : Fin S3072x3072.rank) ∈ dot_S256x3072_S3072x3072_S256x3072_1_0_0_1_n_n.rhsBatch by decide), dif_pos (show (1 : Fin S3072x3072.rank) ∈ dot_S256x3072_S3072x3072_S256x3072_1_0_0_1_n_n.rhsNonContracting by decide)]
  rfl

/-- Entry (p, q) of the product into a zero accumulator is the sum over h of a[p, h] · b[h, q]. -/
theorem matmul_at (a : FVec Ideal S256x3072 .bf16) (b : FVec Ideal S3072x3072 .bf16) (p : Fin 256) (q : Fin 3072) :
    matmul dot_S256x3072_S3072x3072_S256x3072_1_0_0_1_n_n none a b (constant S256x3072 .f32 0x00000000#32) (ix2 p q)
      = ∑ h : Fin 3072, a (ix2 p h) * b (ix2 h q) := by
  simp only [matmul]
  rw [Ideal.matmul_constant_zero_apply, ← Equiv.sum_comp (ValueIdx.contrEquiv1 dot_S256x3072_S3072x3072_S256x3072_1_0_0_1_n_n 3072 rfl rfl).symm]
  refine Finset.sum_congr rfl fun k _ => ?_
  have hk := ValueIdx.contrEquiv1_symm_val dot_S256x3072_S3072x3072_S256x3072_1_0_0_1_n_n 3072 rfl rfl k
  have el : dot_S256x3072_S3072x3072_S256x3072_1_0_0_1_n_n.lhsIdx (ix2 p q) ((ValueIdx.contrEquiv1 dot_S256x3072_S3072x3072_S256x3072_1_0_0_1_n_n 3072 rfl rfl).symm k) = ix2 p k := funext fun a => Fin.ext (by
    match a with
    | ⟨0, _⟩ => exact lhs_row _ _
    | ⟨1, _⟩ => exact (lhs_col _ _).trans hk)
  have er : dot_S256x3072_S3072x3072_S256x3072_1_0_0_1_n_n.rhsIdx (ix2 p q) ((ValueIdx.contrEquiv1 dot_S256x3072_S3072x3072_S256x3072_1_0_0_1_n_n 3072 rfl rfl).symm k) = ix2 k q := funext fun a => Fin.ext (by
    match a with
    | ⟨0, _⟩ => exact (rhs_row _ _).trans hk
    | ⟨1, _⟩ => exact rhs_col _ _)
  rw [el, er]

end Cert.KernelIdeal.MatmulAt

end
-- ==== Proof.Spec.lean ====
/-
  The function both programs compute, on the extended reals. With x [4, 2048, 3072] the hidden states, Wq and Wo
  [3072, 3072] the query and output projection weights (each stored out-features × in-features) and scale the f32
  nearest 128^(-1/2):

      out[b, s, o] = Σ_d ((Σ_h x[b, s, h] · Wq[d, h]) · scale) · Wo[o, d].

  The reference's split of the 3072 query features into 24 heads of 128, its two transposes and its merge back are a
  relabelling that cancels; the key and value projections feed nothing that is returned. No law beyond relabelling a
  sum's index is needed to join the two sides, so nothing here asks the inputs to be finite.
-/
import Idealize.ShloMosaic.PureOps.Ideal
import Idealize.ShloMosaic.Lib.ValueIdx

noncomputable section

namespace Cert.Spec

open Idealize.ShloMosaic Idealize.ShloMosaic.ValueIdx

/-- The attention scale (the f32 word both programs print); the same word on both sides, never evaluated. -/
abbrev scale : EReal := Ideal.ofBits .f32 0x3DB504F3#32

/-- The scaled query projection of row (b, s) at feature d. -/
def query (x : (⟨3, ![4, 2048, 3072]⟩ : Shape).Idx → EReal) (wq : (⟨2, ![3072, 3072]⟩ : Shape).Idx → EReal)
    (b : Fin 4) (s : Fin 2048) (d : Fin 3072) : EReal :=
  (∑ h : Fin 3072, x (ix3 b s h) * wq (ix2 d h)) * scale

/-- The result: the scaled query projected by Wo. -/
def attnOut (x : (⟨3, ![4, 2048, 3072]⟩ : Shape).Idx → EReal) (wq wo : (⟨2, ![3072, 3072]⟩ : Shape).Idx → EReal) :
    (⟨3, ![4, 2048, 3072]⟩ : Shape).Idx → EReal := fun i =>
  ∑ d : Fin 3072, query x wq (i 0) (i 1) d * wo (ix2 (n0 := 3072) (n1 := 3072) (i 2) d)

end Cert.Spec

end
-- ==== Proof.RegionValue.lean ====
/-
  What each of the two pipelined kernel regions leaves in its output array, as ONE function of the two arrays it
  reads, whatever those arrays hold when the region is entered. A region walks 32 row blocks of 256 rows; at block t
  it multiplies rows 256·t … 256·t+255 of the left array [8192, 3072] by the whole right matrix [3072, 3072] and
  writes the product (the first region: the product times the attention scale) to the same rows of the output. So
  entry (r, q) of the output is the sum over h of left[r, h] · right[h, q] (times the scale), and the 32 blocks tile
  the 8192 rows.
-/
import proofs.«107704_j29360396436022_1_alg».proof.Proof.Gen.KernelIdeal.Frame
import proofs.«107704_j29360396436022_1_alg».proof.Proof.MatmulAt
import proofs.«107704_j29360396436022_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

open Cert.Spec (scale)

/-- A row-block product scaled: entry (r, q) is (Σ_h a[r, h] · b[h, q]) · scale. -/
def scaledProduct (a : S8192x3072.Idx → EReal) (b : S3072x3072.Idx → EReal) : S8192x3072.Idx → EReal := fun j =>
  (∑ h : Fin 3072, a (ix2 (j 0) h) * b (ix2 h (j 1))) * scale

/-- A plain product: entry (r, q) is Σ_h a[r, h] · b[h, q]. -/
def product (a : S8192x3072.Idx → EReal) (b : S3072x3072.Idx → EReal) : S8192x3072.Idx → EReal := fun j =>
  ∑ h : Fin 3072, a (ix2 (j 0) h) * b (ix2 h (j 1))

theorem hz : (![0, 0] : Fin 2 → Nat) = fun _ => 0 := funext fun a => by fin_cases a <;> rfl

/-! ## The bodies' payloads at an entry -/

/-- The first body stores (x · w) · scale; the casts of a block to its own shape and the change of float format are
    the identity on the extended reals. -/
theorem scaledPayload_at (x0 : Vec Ideal S256x3072 .bf16) (x1 : Vec Ideal S3072x3072 .bf16) (p : Fin 256) (q : Fin 3072) :
    k0_pay1 (F := Ideal) x0 x1 (ix2 p q) = (∑ h : Fin 3072, x0 (ix2 p h) * x1 (ix2 h q)) * scale := by
  unfold k0_pay1
  simp only [shapeCast_self]
  show (matmul (F := Ideal) dot_S256x3072_S3072x3072_S256x3072_1_0_0_1_n_n none x0 x1 (constant (F := Ideal) S256x3072 .f32 0x00000000#32) (ix2 p q)) * scale = _
  rw [MatmulAt.matmul_at]

/-- The second body stores x · w. -/
theorem payload_at (x0 : Vec Ideal S256x3072 .bf16) (x1 : Vec Ideal S3072x3072 .bf16) (p : Fin 256) (q : Fin 3072) :
    k1_pay1 (F := Ideal) x0 x1 (ix2 p q) = ∑ h : Fin 3072, x0 (ix2 p h) * x1 (ix2 h q) := by
  unfold k1_pay1
  simp only [shapeCast_self]
  exact MatmulAt.matmul_at x0 x1 p q

/-! ## The first region (the scaled query projection) -/

section Region0
variable (V : (c : Dev nD) → (b : Ref sig .tc) → Buf (Elt Ideal) ((c : Thread nD τ).loc b))

/-- The printed index maps over the grid: at point t the left window and the output window are at row block t,
    column block 0, and the right window stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 256·t … of the left array. -/
theorem left0_at (c : Dev nD) (t : Fin cfg0.N) (p : Fin 256) (h : Fin 3072) (r : Fin 8192) (hr : r.val = t.val * 256 + p.val) :
    iblk0 V c 0 t (ix2 p h) = V c main_v1 (ix2 r h) := by
  obtain ⟨e0, e1, -, -, -, -⟩ := idx_facts0 t
  show V c main_v1 (((cfg0.win 0).blk t).view.emb (ix2 p h)) = V c main_v1 (ix2 r h)
  refine congrArg (V c main_v1) (funext fun a => Fin.ext ?_)
  match a with
  | ⟨0, _⟩ => show win0_0.index t (0 : Fin 2) * 256 + 1 * p.val = r.val; omega
  | ⟨1, _⟩ => show win0_0.index t (1 : Fin 2) * 3072 + 1 * h.val = h.val; omega

/-- The right window's block at every point is the whole right matrix. -/
theorem right0_at (c : Dev nD) (t : Fin cfg0.N) (h q : Fin 3072) :
    iblk0 V c 1 t (ix2 h q) = V c main_v3 (ix2 h q) := by
  obtain ⟨-, -, e2, e3, -, -⟩ := idx_facts0 t
  show V c main_v3 (((cfg0.win 1).blk t).view.emb (ix2 h q)) = V c main_v3 (ix2 h q)
  refine congrArg (V c main_v3) (funext fun a => Fin.ext ?_)
  match a with
  | ⟨0, _⟩ => show win0_1.index t (0 : Fin 2) * 3072 + 1 * h.val = h.val; omega
  | ⟨1, _⟩ => show win0_1.index t (1 : Fin 2) * 3072 + 1 * q.val = q.val; omega

/-- What point t writes back is block t of the scaled product of the two arrays the region reads. -/
theorem flushed0_eq (c : Dev nD) (t : Fin cfg0.N) :
    (dat0 V c).flushed 2 t = ((cfg0.win 2).blk t).view.read (Elt Ideal) (scaledProduct (V c main_v1) (V c main_v3)) := by
  show (cfg0.win 2).cut (grid0.coords t) ((dat0 V c).after 2 t) = _
  rw [after0_2]
  unfold out0_2
  rw [View.canon_unit_zero hz]
  simp only [View.ld_unit_zero (S := S256x3072) hz, View.ld_unit_zero (S := S3072x3072) hz]
  obtain ⟨-, -, -, -, e4, e5⟩ := idx_facts0 t
  funext j
  obtain ⟨p, q, rfl⟩ : ∃ (p : Fin 256) (q : Fin 3072), j = ix2 p q := ⟨j 0, j 1, eq_ix2 j⟩
  show k0_pay1 (F := Ideal) (iblk0 V c 0 t) (iblk0 V c 1 t) (ix2 p q)
    = scaledProduct (V c main_v1) (V c main_v3) (((cfg0.win 2).blk t).view.emb (ix2 p q))
  refine (scaledPayload_at (iblk0 V c 0 t) (iblk0 V c 1 t) p q).trans ?_
  have hrow : ((((cfg0.win 2).blk t).view.emb (ix2 p q)) 0).val = t.val * 256 + p.val := by
    show win0_2.index t (0 : Fin 2) * 256 + 1 * p.val = _; omega
  have hcol : (((cfg0.win 2).blk t).view.emb (ix2 p q)) 1 = q :=
    Fin.ext (by show win0_2.index t (1 : Fin 2) * 3072 + 1 * q.val = q.val; omega)
  unfold scaledProduct
  refine congrArg (· * scale) (Finset.sum_congr rfl fun h _ => ?_)
  exact congrArg₂ (· * ·) (left0_at V c t p h _ hrow)
    ((right0_at V c t h q).trans (congrArg (fun x => V c main_v3 (ix2 h x)) hcol.symm))

/-- An index of the output array is in point t's block iff each coordinate is in the block's range on its axis. -/
theorem mem_blk0 (t : Fin cfg0.N) (i : S8192x3072.Idx) :
    i ∈ ((cfg0.win 2).blk t).view.set ↔ ∀ a : Fin 2, win0_2.index t a * S256x3072.size a ≤ (i a).val ∧ (i a).val < win0_2.index t a * S256x3072.size a + S256x3072.size a := by
  show i ∈ ((View.whole main_v6).slice (win0_2.rect t)).set ↔ _
  rw [View.set_slice_whole, Rect.mem_set_unit]
  exact Iff.rfl

/-- The 32 row blocks tile the 8192 rows: row r is in the block of point r / 256. -/
theorem cover0 (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  have hN : cfg0.N = 32 := N_0
  refine ⟨⟨(i 0).val / 256, by rw [hN]; omega⟩, flush0_2 _, ?_⟩
  rw [mem_blk0]
  obtain ⟨-, -, -, -, e4, e5⟩ := idx_facts0 ⟨(i 0).val / 256, by rw [hN]; omega⟩
  intro a
  match a with
  | ⟨0, _⟩ => show win0_2.index _ (0 : Fin 2) * 256 ≤ (i 0).val ∧ (i 0).val < win0_2.index _ (0 : Fin 2) * 256 + 256; rw [e4]; show (i 0).val / 256 * 256 ≤ (i 0).val ∧ (i 0).val < (i 0).val / 256 * 256 + 256; omega
  | ⟨1, _⟩ => show win0_2.index _ (1 : Fin 2) * 3072 ≤ (i 1).val ∧ (i 1).val < win0_2.index _ (1 : Fin 2) * 3072 + 3072; rw [e5]; omega

/-- After the first region its output array is the scaled product of the two arrays it read. -/
theorem final0 (c : Dev nD) : (dat0 V c).arrAt 2 cfg0.N = scaledProduct (V c main_v1) (V c main_v3) :=
  (dat0 V c).arrAt_eq_of_cover 2 (scaledProduct (V c main_v1) (V c main_v3)) (fun t _ => flushed0_eq V c t) cover0

end Region0

/-! ## The second region (the output projection) -/

section Region1
variable (V : (c : Dev nD) → (b : Ref sig .tc) → Buf (Elt Ideal) ((c : Thread nD τ).loc b))

/-- The printed index maps over the grid, as in the first region: row block t for the left and output windows, the one
    block of the right matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point t is rows 256·t … of the left array (the first region's output). -/
theorem left1_at (c : Dev nD) (t : Fin cfg1.N) (p : Fin 256) (h : Fin 3072) (r : Fin 8192) (hr : r.val = t.val * 256 + p.val) :
    iblk1 V c 0 t (ix2 p h) = V c main_v6 (ix2 r h) := by
  obtain ⟨e0, e1, -, -, -, -⟩ := idx_facts1 t
  show V c main_v6 (((cfg1.win 0).blk t).view.emb (ix2 p h)) = V c main_v6 (ix2 r h)
  refine congrArg (V c main_v6) (funext fun a => Fin.ext ?_)
  match a with
  | ⟨0, _⟩ => show win1_0.index t (0 : Fin 2) * 256 + 1 * p.val = r.val; omega
  | ⟨1, _⟩ => show win1_0.index t (1 : Fin 2) * 3072 + 1 * h.val = h.val; omega

/-- The right window's block at every point is the whole right matrix. -/
theorem right1_at (c : Dev nD) (t : Fin cfg1.N) (h q : Fin 3072) :
    iblk1 V c 1 t (ix2 h q) = V c main_v5 (ix2 h q) := by
  obtain ⟨-, -, e2, e3, -, -⟩ := idx_facts1 t
  show V c main_v5 (((cfg1.win 1).blk t).view.emb (ix2 h q)) = V c main_v5 (ix2 h q)
  refine congrArg (V c main_v5) (funext fun a => Fin.ext ?_)
  match a with
  | ⟨0, _⟩ => show win1_1.index t (0 : Fin 2) * 3072 + 1 * h.val = h.val; omega
  | ⟨1, _⟩ => show win1_1.index t (1 : Fin 2) * 3072 + 1 * q.val = q.val; omega

/-- What point t writes back is block t of the product of the two arrays the region reads. -/
theorem flushed1_eq (c : Dev nD) (t : Fin cfg1.N) :
    (dat1 V c).flushed 2 t = ((cfg1.win 2).blk t).view.read (Elt Ideal) (product (V c main_v6) (V c main_v5)) := by
  show (cfg1.win 2).cut (grid1.coords t) ((dat1 V c).after 2 t) = _
  rw [after1_2]
  unfold out1_2
  rw [View.canon_unit_zero hz]
  simp only [View.ld_unit_zero (S := S256x3072) hz, View.ld_unit_zero (S := S3072x3072) hz]
  obtain ⟨-, -, -, -, e4, e5⟩ := idx_facts1 t
  funext j
  obtain ⟨p, q, rfl⟩ : ∃ (p : Fin 256) (q : Fin 3072), j = ix2 p q := ⟨j 0, j 1, eq_ix2 j⟩
  show k1_pay1 (F := Ideal) (iblk1 V c 0 t) (iblk1 V c 1 t) (ix2 p q)
    = product (V c main_v6) (V c main_v5) (((cfg1.win 2).blk t).view.emb (ix2 p q))
  refine (payload_at (iblk1 V c 0 t) (iblk1 V c 1 t) p q).trans ?_
  have hrow : ((((cfg1.win 2).blk t).view.emb (ix2 p q)) 0).val = t.val * 256 + p.val := by
    show win1_2.index t (0 : Fin 2) * 256 + 1 * p.val = _; omega
  have hcol : (((cfg1.win 2).blk t).view.emb (ix2 p q)) 1 = q :=
    Fin.ext (by show win1_2.index t (1 : Fin 2) * 3072 + 1 * q.val = q.val; omega)
  unfold product
  refine Finset.sum_congr rfl fun h _ => ?_
  exact congrArg₂ (· * ·) (left1_at V c t p h _ hrow)
    ((right1_at V c t h q).trans (congrArg (fun x => V c main_v5 (ix2 h x)) hcol.symm))

/-- An index of the output array is in point t's block iff each coordinate is in the block's range on its axis. -/
theorem mem_blk1 (t : Fin cfg1.N) (i : S8192x3072.Idx) :
    i ∈ ((cfg1.win 2).blk t).view.set ↔ ∀ a : Fin 2, win1_2.index t a * S256x3072.size a ≤ (i a).val ∧ (i a).val < win1_2.index t a * S256x3072.size a + S256x3072.size a := by
  show i ∈ ((View.whole main_v7).slice (win1_2.rect t)).set ↔ _
  rw [View.set_slice_whole, Rect.mem_set_unit]
  exact Iff.rfl

/-- The 32 row blocks tile the 8192 rows. -/
theorem cover1 (i : S8192x3072.Idx) : ∃ t : Fin cfg1.N, (cfg1.win 2).flush t = true ∧ i ∈ ((cfg1.win 2).blk t).view.set := by
  have hi0 : (i 0).val < 8192 := (i 0).isLt
  have hi1 : (i 1).val < 3072 := (i 1).isLt
  have hN : cfg1.N = 32 := N_1
  refine ⟨⟨(i 0).val / 256, by rw [hN]; omega⟩, flush1_2 _, ?_⟩
  rw [mem_blk1]
  obtain ⟨-, -, -, -, e4, e5⟩ := idx_facts1 ⟨(i 0).val / 256, by rw [hN]; omega⟩
  intro a
  match a with
  | ⟨0, _⟩ => show win1_2.index _ (0 : Fin 2) * 256 ≤ (i 0).val ∧ (i 0).val < win1_2.index _ (0 : Fin 2) * 256 + 256; rw [e4]; show (i 0).val / 256 * 256 ≤ (i 0).val ∧ (i 0).val < (i 0).val / 256 * 256 + 256; omega
  | ⟨1, _⟩ => show win1_2.index _ (1 : Fin 2) * 3072 ≤ (i 1).val ∧ (i 1).val < win1_2.index _ (1 : Fin 2) * 3072 + 3072; rw [e5]; omega

/-- After the second region its output array is the product of the two arrays it read. -/
theorem final1 (c : Dev nD) : (dat1 V c).arrAt 2 cfg1.N = product (V c main_v6) (V c main_v5) :=
  (dat1 V c).arrAt_eq_of_cover 2 (product (V c main_v6) (V c main_v5)) (fun t _ => flushed1_eq V c t) cover1

end Region1

end Cert.KernelIdeal.RegionValue

end
-- ==== Proof.KernelValue.lean ====
/-
  The kernel program's result, entry by entry. Its host steps flatten x to [8192, 3072] (row r = 2048·b + s) and
  transpose Wq and Wo; the first region leaves q[r, d] = (Σ_h x[r, h] · Wq[d, h]) · scale; the second leaves
  y[r, o] = Σ_d q[r, d] · Wo[o, d]; the last host step reads y back as [4, 2048, 3072]. The conversions to bf16
  between the steps are the identity on the extended reals. So out[b, s, o] is the specified sum.
-/
import proofs.«107704_j29360396436022_1_alg».proof.Proof.Gen.KernelIdeal.Frame
import proofs.«107704_j29360396436022_1_alg».proof.Proof.RegionValue
import proofs.«107704_j29360396436022_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Cert.KernelIdeal.RegionValue

variable (m : (ℓ : Loc nD τ sig) → Buf (Elt Ideal) ℓ) (ρ : Dev nD → PrngReg)

/-! ## What the host steps before the regions leave -/

/-- The flattened hidden states, as the first region finds them. -/
theorem rows_eq (c : Dev nD) : (V1 m ρ c main_v1 : S8192x3072.Idx → EReal)
    = truncf (F := Ideal) .bf16 (shapeCast _ (m ((c : Thread nD τ).loc main_arg0)) shapeCasts_S4x2048x3072_S8192x3072) bitsLt_bf16_f32 := by
  show StableHlo.after hostOps0 (W0 m ρ c) (Proc.devRef .tc main_v1) = _
  after_results <;> rfl

/-- Wq transposed, as the first region finds it. -/
theorem wqT_eq (c : Dev nD) : (V1 m ρ c main_v3 : S3072x3072.Idx → EReal)
    = truncf (F := Ideal) .bf16 (transpose S3072x3072 [1, 0] (m ((c : Thread nD τ).loc main_arg5)) transposes_S3072x3072_S3072x3072_1_0) bitsLt_bf16_f32 := by
  show StableHlo.after hostOps0 (W0 m ρ c) (Proc.devRef .tc main_v3) = _
  after_results <;> rfl

/-- Wo transposed, as the host steps leave it. -/
theorem woT_eq (c : Dev nD) : (V1 m ρ c main_v5 : S3072x3072.Idx → EReal)
    = truncf (F := Ideal) .bf16 (transpose S3072x3072 [1, 0] (m ((c : Thread nD τ).loc main_arg8)) transposes_S3072x3072_S3072x3072_1_0) bitsLt_bf16_f32 := by
  show StableHlo.after hostOps0 (W0 m ρ c) (Proc.devRef .tc main_v5) = _
  after_results <;> rfl

/-! ## The regions' outputs and the last host step -/

/-- The first region's output: the scaled product of the flattened hidden states and Wq transposed. -/
theorem q_eq (c : Dev nD) : V2 m ρ c main_v6 = scaledProduct (V1 m ρ c main_v1) (V1 m ρ c main_v3) :=
  (W2_arr m ρ c 2).trans (final0 (V1 m ρ) c)

/-- The first region leaves Wo transposed where the host steps put it. -/
theorem woT_kept (c : Dev nD) : V2 m ρ c main_v5 = V1 m ρ c main_v5 :=
  W2_of_ne m ρ c main_v5 (by decide)

/-- The second region's output: the product of the first region's output and Wo transposed. -/
theorem y_eq (c : Dev nD) : V3 m ρ c main_v7 = product (V2 m ρ c main_v6) (V2 m ρ c main_v5) :=
  (W3_arr m ρ c 2).trans (final1 (V2 m ρ) c)

/-- The result buffer: the second region's output read back as [4, 2048, 3072]. -/
theorem out_eq (c : Dev nD) : (W4 m ρ c (Proc.devRef .tc main_v8) : S4x2048x3072.Idx → EReal)
    = shapeCast _ (V3 m ρ c main_v7) shapeCasts_S8192x3072_S4x2048x3072 := by
  show StableHlo.after hostOps2 (W3 m ρ c) (Proc.devRef .tc main_v8) = _
  after_results <;> rfl

/-! ## Reading the operands at an entry -/

/-- Row 2048·b + s of the flattened hidden states is row (b, s) of x. -/
theorem rows_at (c : Dev nD) (b : Fin 4) (s : Fin 2048) (h : Fin 3072) (r : Fin 8192) (hr : r.val = b.val * 2048 + s.val) :
    V1 m ρ c main_v1 (ix2 r h) = m ((c : Thread nD τ).loc main_arg0) (ix3 (n0 := 4) (n1 := 2048) (n2 := 3072) b s h) := by
  refine (congrFun (rows_eq m ρ c) (ix2 r h)).trans ?_
  show shapeCast _ (m ((c : Thread nD τ).loc main_arg0)) shapeCasts_S4x2048x3072_S8192x3072 (ix2 r h) = _
  exact shapeCast_apply _ shapeCasts_S4x2048x3072_S8192x3072 (ix2 r h) (ix3 (n0 := 4) (n1 := 2048) (n2 := 3072) b s h)
    (by rewrite [Shape.rowMajor_val_three, Shape.rowMajor_val_two]
        show (b.val * 2048 + s.val) * 3072 + h.val = r.val * 3072 + h.val
        rw [hr])

/-- Entry (h, d) of Wq transposed is Wq[d, h]. -/
theorem wqT_at (c : Dev nD) (h d : Fin 3072) :
    V1 m ρ c main_v3 (ix2 h d) = m ((c : Thread nD τ).loc main_arg5) (ix2 (n0 := 3072) (n1 := 3072) d h) := by
  refine (congrFun (wqT_eq m ρ c) (ix2 h d)).trans ?_
  show transpose S3072x3072 [1, 0] (m ((c : Thread nD τ).loc main_arg5)) transposes_S3072x3072_S3072x3072_1_0 (ix2 h d) = _
  exact transpose_apply [1, 0] _ transposes_S3072x3072_S3072x3072_1_0 (ix2 h d) (ix2 (n0 := 3072) (n1 := 3072) d h) (fun b => match b with
    | ⟨0, _⟩ => rfl
    | ⟨1, _⟩ => rfl)

/-- Entry (d, o) of Wo transposed is Wo[o, d]. -/
theorem woT_at (c : Dev nD) (d o : Fin 3072) :
    V1 m ρ c main_v5 (ix2 d o) = m ((c : Thread nD τ).loc main_arg8) (ix2 (n0 := 3072) (n1 := 3072) o d) := by
  refine (congrFun (woT_eq m ρ c) (ix2 d o)).trans ?_
  show transpose S3072x3072 [1, 0] (m ((c : Thread nD τ).loc main_arg8)) transposes_S3072x3072_S3072x3072_1_0 (ix2 d o) = _
  exact transpose_apply [1, 0] _ transposes_S3072x3072_S3072x3072_1_0 (ix2 d o) (ix2 (n0 := 3072) (n1 := 3072) o d) (fun b => match b with
    | ⟨0, _⟩ => rfl
    | ⟨1, _⟩ => rfl)

/-! ## The result -/

/-- The first region's output and Wo transposed as the second region finds them, at their literal types. -/
abbrev qArr (c : Dev nD) : S8192x3072.Idx → EReal := V2 m ρ c main_v6
abbrev woTArr (c : Dev nD) : S3072x3072.Idx → EReal := V2 m ρ c main_v5
/-- The second region's output, at its literal type. -/
abbrev yArr (c : Dev nD) : S8192x3072.Idx → EReal := V3 m ρ c main_v7
/-- The flattened hidden states and Wq transposed as the first region finds them. -/
abbrev xRows (c : Dev nD) : S8192x3072.Idx → EReal := V1 m ρ c main_v1
abbrev wqTArr (c : Dev nD) : S3072x3072.Idx → EReal := V1 m ρ c main_v3

/-- Entry (r, d) of the first region's output, for r = 2048·b + s, is the scaled query of row (b, s) at feature d. -/
theorem q_at (c : Dev nD) (b : Fin 4) (s : Fin 2048) (d : Fin 3072) (r : Fin 8192) (hr : r.val = b.val * 2048 + s.val) :
    qArr m ρ c (ix2 r d)
      = Cert.Spec.query (m ((c : Thread nD τ).loc main_arg0)) (m ((c : Thread nD τ).loc main_arg5)) b s d := by
  refine (congrFun (q_eq m ρ c) (ix2 r d)).trans ?_
  show (∑ h : Fin 3072, xRows m ρ c (ix2 r h) * wqTArr m ρ c (ix2 h d)) * Cert.Spec.scale = _
  unfold Cert.Spec.query
  exact congrArg (· * Cert.Spec.scale) (Finset.sum_congr rfl fun h _ =>
    congrArg₂ (· * ·) (rows_at m ρ c b s h r hr) (wqT_at m ρ c h d))

/-- The kernel program's result buffer holds the specified function of x, Wq and Wo. -/
theorem result_eq (c : Dev nD) : (W4 m ρ c (Proc.devRef .tc main_v8) : S4x2048x3072.Idx → EReal)
    = Cert.Spec.attnOut (m ((c : Thread nD τ).loc main_arg0)) (m ((c : Thread nD τ).loc main_arg5)) (m ((c : Thread nD τ).loc main_arg8)) := by
  refine (out_eq m ρ c).trans ?_
  funext i
  obtain ⟨b, s, o, rfl⟩ : ∃ (b : Fin 4) (s : Fin 2048) (o : Fin 3072), i = ix3 b s o := ⟨i 0, i 1, i 2, eq_ix3 i⟩
  have hb : b.val < 4 := b.isLt
  have hs : s.val < 2048 := s.isLt
  obtain ⟨r, hr⟩ : ∃ r : Fin 8192, r.val = b.val * 2048 + s.val := ⟨⟨b.val * 2048 + s.val, by omega⟩, rfl⟩
  have hcast : shapeCast S4x2048x3072 (yArr m ρ c) shapeCasts_S8192x3072_S4x2048x3072 (ix3 b s o) = yArr m ρ c (ix2 r o) :=
    shapeCast_apply (s := S8192x3072) (t := S4x2048x3072) (yArr m ρ c) shapeCasts_S8192x3072_S4x2048x3072 (ix3 b s o) (ix2 r o)
      (by show (S8192x3072.rowMajor (ix2 r o)).val = (S4x2048x3072.rowMajor (ix3 b s o)).val
          rewrite [Shape.rowMajor_val_two, Shape.rowMajor_val_three]
          show r.val * 3072 + o.val = (b.val * 2048 + s.val) * 3072 + o.val
          rw [hr])
  refine hcast.trans ?_
  refine (congrFun (y_eq m ρ c) (ix2 r o)).trans ?_
  show ∑ k : Fin 3072, qArr m ρ c (ix2 r k) * woTArr m ρ c (ix2 k o) = _
  unfold Cert.Spec.attnOut
  refine Finset.sum_congr rfl fun k _ => congrArg₂ (· * ·) (q_at m ρ c b s k r hr) ?_
  exact (congrFun (woT_kept m ρ c) (ix2 k o)).trans (woT_at m ρ c k o)

end Cert.KernelIdeal.KernelValue

end
-- ==== Proof.RefValue.lean ====
/-
  The reference's result read entry by entry: out[b, s, o] = Σ_d ((Σ_h x[b, s, h] · Wq[d, h]) · scale) · Wo[o, d].
  Between its two projections the reference splits the 3072 query features into 24 heads of 128, swaps the sequence
  and head axes, scales, swaps back and merges: feature d = 128·(d / 128) + d % 128 goes to head d / 128, lane d % 128
  and comes back to d, so the four layout steps cancel at every entry.
-/
import proofs.«107704_j29360396436022_1_alg».proof.Proof.Gen.ReferenceIdeal.Read
import proofs.«107704_j29360396436022_1_alg».proof.Proof.Spec

noncomputable section

namespace Cert.ReferenceIdeal.RefValue

open Cert.ReferenceIdeal Cert.ReferenceIdeal.Read Idealize.ShloMosaic Idealize.ShloMosaic.ValueIdx

/-- Split a feature into (head, lane), swap the sequence and head axes, swap them back, merge: the same entry. With
    N the row-major position of (b, s, d) in [4, 2048, 3072], the split reads (N / 6291456, N / 3072 % 2048,
    N / 128 % 24, N % 128), the two swaps cancel, and the merge's row-major position is N again. -/
theorem heads_cancel (j : S4x2048x3072.Idx) : idx_main_v3 (idx_main_v4 (idx_main_v15 (idx_main_v16 j))) = j := by
  have h0 : (j 0).val < 4 := (j 0).isLt
  have h1 : (j 1).val < 2048 := (j 1).isLt
  have h2 : (j 2).val < 3072 := (j 2).isLt
  funext a; apply Fin.ext
  match a with
  | ⟨0, _⟩ =>
    show ((((((j 0).val * 2048 + (j 1).val) * 3072 + (j 2).val) / 6291456 * 2048 + (((j 0).val * 2048 + (j 1).val) * 3072 + (j 2).val) / 3072 % 2048) * 24 + (((j 0).val * 2048 + (j 1).val) * 3072 + (j 2).val) / 128 % 24) * 128 + (((j 0).val * 2048 + (j 1).val) * 3072 + (j 2).val) % 128) / 6291456 = (j 0).val
    omega
  | ⟨1, _⟩ =>
    show ((((((j 0).val * 2048 + (j 1).val) * 3072 + (j 2).val) / 6291456 * 2048 + (((j 0).val * 2048 + (j 1).val) * 3072 + (j 2).val) / 3072 % 2048) * 24 + (((j 0).val * 2048 + (j 1).val) * 3072 + (j 2).val) / 128 % 24) * 128 + (((j 0).val * 2048 + (j 1).val) * 3072 + (j 2).val) % 128) / 3072 % 2048 = (j 1).val
    omega
  | ⟨2, _⟩ =>
    show ((((((j 0).val * 2048 + (j 1).val) * 3072 + (j 2).val) / 6291456 * 2048 + (((j 0).val * 2048 + (j 1).val) * 3072 + (j 2).val) / 3072 % 2048) * 24 + (((j 0).val * 2048 + (j 1).val) * 3072 + (j 2).val) / 128 % 24) * 128 + (((j 0).val * 2048 + (j 1).val) * 3072 + (j 2).val) % 128) % 3072 = (j 2).val
    omega

/-- The reference's result is the specified function of the three arrays it reads. -/
theorem result_eq (x0 : (⟨S4x2048x3072, .f32⟩ : BufTy).Contents (Elt Ideal)) (x5 x8 : (⟨S3072x3072, .f32⟩ : BufTy).Contents (Elt Ideal)) :
    val_main_v17 (F := Ideal) x0 x5 x8 = Cert.Spec.attnOut x0 x5 x8 := by
  funext i
  rw [val_main_v17_apply]
  unfold Cert.Spec.attnOut
  refine Finset.sum_congr rfl fun k _ => ?_
  have hr : ridx_main_v17 i k = ix2 (n0 := 3072) (n1 := 3072) (i 2) k :=
    funext fun a => Fin.ext (by match a with | ⟨0, _⟩ => rfl | ⟨1, _⟩ => rfl)
  rw [hr]
  refine congrArg (· * x8 (ix2 (n0 := 3072) (n1 := 3072) (i 2) k)) ?_
  rw [val_main_v16_apply, val_main_v15_apply, val_main_v14_apply, val_main_v4_apply, val_main_v3_apply,
    val_main_v13_apply, val_main_cst_apply, heads_cancel, val_main_v0_apply]
  unfold Cert.Spec.query
  show (∑ h : Fin 3072, x0 (lidx_main_v0 (lidx_main_v17 i k) h) * x5 (ridx_main_v0 (lidx_main_v17 i k) h)) * Cert.Spec.scale = _
  refine congrArg (· * Cert.Spec.scale) (Finset.sum_congr rfl fun h _ => ?_)
  have el : lidx_main_v0 (lidx_main_v17 i k) h = ix3 (n0 := 4) (n1 := 2048) (n2 := 3072) (i 0) (i 1) h :=
    funext fun a => Fin.ext (by match a with | ⟨0, _⟩ => rfl | ⟨1, _⟩ => rfl | ⟨2, _⟩ => rfl)
  have er : ridx_main_v0 (lidx_main_v17 i k) h = ix2 (n0 := 3072) (n1 := 3072) k h :=
    funext fun a => Fin.ext (by match a with | ⟨0, _⟩ => rfl | ⟨1, _⟩ => rfl)
  rw [el, er]

end Cert.ReferenceIdeal.RefValue

end
-- ==== Proof.lean ====
/-
  The kernel program and the reference compute the same attention block output on the extended reals, and every
  program runs to completion with its arguments unchanged.

  Both sides are out[b, s, o] = Σ_d ((Σ_h x[b, s, h] · Wq[d, h]) · scale) · Wo[o, d], with scale the same f32 word, and
  both return the key/value cache argument untouched. The kernel program flattens the batch and sequence axes, transposes
  the two weight matrices on the host and runs two row-blocked matrix products (32 blocks of 256 rows each), the first
  one scaled; the reference projects, splits the features into heads, swaps axes, scales, swaps back, merges and
  projects again (its key and value projections reach no result). The head split and the swaps are a relabelling that
  cancels; the conversions to bf16 are the identity on the extended reals; the two sums are then the same sums term by
  term, so no finiteness of the inputs is used.

  The three frames: the two kernel programs' by the generated frame over their two regions, the reference's from its
  run. The idealization rewrote nothing, so there is nothing to preserve.
-/
import proofs.«107704_j29360396436022_1_alg».proof.Defs
import proofs.«107704_j29360396436022_1_alg».proof.Proof.Gen.Kernel
import proofs.«107704_j29360396436022_1_alg».proof.Proof.Gen.Kernel.Skeleton
import proofs.«107704_j29360396436022_1_alg».proof.Proof.Gen.Kernel.Launch
import proofs.«107704_j29360396436022_1_alg».proof.Proof.Gen.Kernel.Points
import proofs.«107704_j29360396436022_1_alg».proof.Proof.Gen.Kernel.Frame
import proofs.«107704_j29360396436022_1_alg».proof.Proof.Gen.KernelIdeal
import proofs.«107704_j29360396436022_1_alg».proof.Proof.Gen.KernelIdeal.Skeleton
import proofs.«107704_j29360396436022_1_alg».proof.Proof.Gen.KernelIdeal.Launch
import proofs.«107704_j29360396436022_1_alg».proof.Proof.Gen.KernelIdeal.Points
import proofs.«107704_j29360396436022_1_alg».proof.Proof.Gen.KernelIdeal.Frame
import proofs.«107704_j29360396436022_1_alg».proof.Proof.Gen.ReferenceIdeal
import proofs.«107704_j29360396436022_1_alg».proof.Proof.Gen.ReferenceIdeal.Run
import proofs.«107704_j29360396436022_1_alg».proof.Proof.Gen.ReferenceIdeal.Read
import proofs.«107704_j29360396436022_1_alg».proof.Proof.Gen.Pre_finite_inputs
import proofs.«107704_j29360396436022_1_alg».proof.Proof.KernelRun
import proofs.«107704_j29360396436022_1_alg».proof.Proof.KernelValue
import proofs.«107704_j29360396436022_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the specified output and with the cache argument
    as launched. -/
theorem algebraic : Cert.algebraic_KernelIdeal_ReferenceIdeal := by
  intro m ρ m' ρ' _ hagree
  refine ⟨fun c => Cert.Spec.attnOut (m ((c.tc : Thread Cert.KernelIdeal.nD Cert.KernelIdeal.τ).loc Cert.KernelIdeal.main_arg0))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg8)),
    fun c => m ((c.tc : Thread Cert.KernelIdeal.nD Cert.KernelIdeal.τ).loc Cert.KernelIdeal.main_arg4), ?_, ?_⟩
  · refine (θ_run Cert.KernelIdeal.defs _ _).mono (fun r h c => ?_) (Cert.KernelIdeal.Gen.run_named (F := Ideal) m ρ)
    obtain ⟨h8, a0, a1, a2, a3, a4, a5, a6, a7, a8⟩ := h c
    exact ⟨h8.trans (Cert.KernelIdeal.KernelValue.result_eq m ρ c), a4, a0, a1, a2, a3, a4, a5, a6, a7, a8⟩
  · refine (θ_run Cert.ReferenceIdeal.defs _ _).mono (fun r h c => ?_) (Cert.ReferenceIdeal.Value.run (F := Ideal) m' ρ')
    obtain ⟨h17, h4, rest⟩ := h c
    refine ⟨h17.trans ?_, h4.trans (hagree c).2.2.2.2.1, rest⟩
    rw [Cert.ReferenceIdeal.Read.val_main_v17_eq, Cert.ReferenceIdeal.RefValue.result_eq,
      (hagree c).1, (hagree c).2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
